-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S_ : Shape := ⟨0, ![]⟩

class Facts : Prop where
  bcast_S_S4x2048x1600 : S_.BroadcastsInDim S4x2048x1600 (![] : Fin 0 → Fin S4x2048x1600.rank)
  reducesTo_S4x2048x1600_S_d0_1_2 : S4x2048x1600.ReducesTo [0, 1, 2] S_
  h_S_ : 0 < S_.numel
  bcast_S_S1600x4800 : S_.BroadcastsInDim S1600x4800 (![] : Fin 0 → Fin S1600x4800.rank)
  reducesTo_S1600x4800_S_d0_1 : S1600x4800.ReducesTo [0, 1] S_
  bcast_S_S4800 : S_.BroadcastsInDim S4800 (![] : Fin 0 → Fin S4800.rank)
  reducesTo_S4800_S_d0 : S4800.ReducesTo [0] S_
  bcast_S_S1600x8 : S_.BroadcastsInDim S1600x8 (![] : Fin 0 → Fin S1600x8.rank)
  reducesTo_S1600x8_S_d0_1 : S1600x8.ReducesTo [0, 1] S_
  bcast_S_S8x4800 : S_.BroadcastsInDim S8x4800 (![] : Fin 0 → Fin S8x4800.rank)
  reducesTo_S8x4800_S_d0_1 : S8x4800.ReducesTo [0, 1] S_

variable [Facts]

def fn_part1 {F : FTy → Type} [FloatOps F] (main_arg4 : FVec F S8x4800 .f32) (main_v13 : IVec S_ 1) (main_v16 : IVec S1600x8 1) : IVec S_ 1 :=
  let main_c_5 : IVec S_ 1 := constantI S_ 1 1#1
  let main_v17 : IVec S_ 1 := (fun x v => Host.reduce IntOp.andi x v reducesTo_S1600x8_S_d0_1 h_S_) main_v16 main_c_5
  let main_v18 : IVec S_ 1 := andi main_v13 main_v17
  let main_v19 : FVec F S8x4800 .f32 := Host.absf main_arg4
  let main_cst_6 : FVec F S_ .f32 := constant S_ .f32 0x7F800000#32
  let main_v20 : FVec F S8x4800 .f32 := broadcastInDim S8x4800 ![] bcast_S_S8x4800 main_cst_6
  let main_v21 : IVec S8x4800 1 := cmpf .olt main_v19 main_v20
  let main_c_7 : IVec S_ 1 := constantI S_ 1 1#1
  let main_v22 : IVec S_ 1 := (fun x v => Host.reduce IntOp.andi x v reducesTo_S8x4800_S_d0_1 h_S_) main_v21 main_c_7
  let main_v23 : IVec S_ 1 := andi main_v18 main_v22
  main_v23

def fn {F : FTy → Type} [FloatOps F] (main_arg0 : FVec F S4x2048x1600 .f32) (main_arg1 : FVec F S1600x4800 .f32) (main_arg2 : FVec F S4800 .f32) (main_arg3 : FVec F S1600x8 .f32) (main_arg4 : FVec F S8x4800 .f32) : IVec S_ 1 :=
  let main_v0 : FVec F S4x2048x1600 .f32 := Host.absf main_arg0
  let main_cst : FVec F S_ .f32 := constant S_ .f32 0x7F800000#32
  let main_v1 : FVec F S4x2048x1600 .f32 := broadcastInDim S4x2048x1600 ![] bcast_S_S4x2048x1600 main_cst
  let main_v2 : IVec S4x2048x1600 1 := cmpf .olt main_v0 main_v1
  let main_c : IVec S_ 1 := constantI S_ 1 1#1
  let main_v3 : IVec S_ 1 := (fun x v => Host.reduce IntOp.andi x v reducesTo_S4x2048x1600_S_d0_1_2 h_S_) main_v2 main_c
  let main_v4 : FVec F S1600x4800 .f32 := Host.absf main_arg1
  let main_cst_0 : FVec F S_ .f32 := constant S_ .f32 0x7F800000#32
  let main_v5 : FVec F S1600x4800 .f32 := broadcastInDim S1600x4800 ![] bcast_S_S1600x4800 main_cst_0
  let main_v6 : IVec S1600x4800 1 := cmpf .olt main_v4 main_v5
  let main_c_1 : IVec S_ 1 := constantI S_ 1 1#1
  let main_v7 : IVec S_ 1 := (fun x v => Host.reduce IntOp.andi x v reducesTo_S1600x4800_S_d0_1 h_S_) main_v6 main_c_1
  let main_v8 : IVec S_ 1 := andi main_v3 main_v7
  let main_v9 : FVec F S4800 .f32 := Host.absf main_arg2
  let main_cst_2 : FVec F S_ .f32 := constant S_ .f32 0x7F800000#32
  let main_v10 : FVec F S4800 .f32 := broadcastInDim S4800 ![] bcast_S_S4800 main_cst_2
  let main_v11 : IVec S4800 1 := cmpf .olt main_v9 main_v10
  let main_c_3 : IVec S_ 1 := constantI S_ 1 1#1
  let main_v12 : IVec S_ 1 := (fun x v => Host.reduce IntOp.andi x v reducesTo_S4800_S_d0 h_S_) main_v11 main_c_3
  let main_v13 : IVec S_ 1 := andi main_v8 main_v12
  let main_v14 : FVec F S1600x8 .f32 := Host.absf main_arg3
  let main_cst_4 : FVec F S_ .f32 := constant S_ .f32 0x7F800000#32
  let main_v15 : FVec F S1600x8 .f32 := broadcastInDim S1600x8 ![] bcast_S_S1600x8 main_cst_4
  let main_v16 : IVec S1600x8 1 := cmpf .olt main_v14 main_v15
  fn_part1 (F := F) main_arg4 main_v13 main_v16
-- ==== Kernel.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S8192x1600 : Shape := ⟨2, ![8192, 1600]⟩
abbrev S1x4800 : Shape := ⟨2, ![1, 4800]⟩
abbrev S8192x4800 : Shape := ⟨2, ![8192, 4800]⟩
abbrev S128x1600 : Shape := ⟨2, ![128, 1600]⟩
abbrev S128x4800 : Shape := ⟨2, ![128, 4800]⟩
abbrev S128x8 : Shape := ⟨2, ![128, 8]⟩
abbrev S4x2048x4800 : Shape := ⟨3, ![4, 2048, 4800]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x1600, .f32⟩
  | .hbm, ⟨1, _⟩ => ⟨S1600x4800, .f32⟩
  | .hbm, ⟨2, _⟩ => ⟨S4800, .f32⟩
  | .hbm, ⟨3, _⟩ => ⟨S1600x8, .f32⟩
  | .hbm, ⟨4, _⟩ => ⟨S8x4800, .f32⟩
  | .hbm, ⟨5, _⟩ => ⟨S8192x1600, .f32⟩
  | .hbm, ⟨6, _⟩ => ⟨S1600x4800, .bf16⟩
  | .hbm, ⟨7, _⟩ => ⟨S1600x8, .bf16⟩
  | .hbm, ⟨8, _⟩ => ⟨S8x4800, .bf16⟩
  | .hbm, ⟨9, _⟩ => ⟨S1x4800, .f32⟩
  | .hbm, ⟨10, _⟩ => ⟨S8192x4800, .f32⟩
  | .hbm, ⟨11, _⟩ => ⟨S4x2048x4800, .f32⟩
  | .local _ .vmem, ⟨0, _⟩ => ⟨S128x1600, .f32⟩
  | .local _ .vmem, ⟨1, _⟩ => ⟨S128x1600, .f32⟩
  | .local _ .vmem, ⟨2, _⟩ => ⟨S1600x4800, .bf16⟩
  | .local _ .vmem, ⟨3, _⟩ => ⟨S1x4800, .f32⟩
  | .local _ .vmem, ⟨4, _⟩ => ⟨S1600x8, .bf16⟩
  | .local _ .vmem, ⟨5, _⟩ => ⟨S8x4800, .bf16⟩
  | .local _ .vmem, ⟨6, _⟩ => ⟨S128x4800, .f32⟩
  | .local _ .vmem, ⟨7, _⟩ => ⟨S128x4800, .f32⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1600x4800 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4800 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1600_S8192x1600 : S4x2048x1600.ShapeCasts S8192x1600
  bitsLt_bf16_f32 : FTy.bits .bf16 < FTy.bits .f32
  shapeCasts_S4800_S1x4800 : S4800.ShapeCasts S1x4800
  inb_S128x1600_S128x1600_0_0 : ∀ a, (![0, 0] : Fin 2 → Nat) a + S128x1600.size a ≤ S128x1600.size a
  h_S128x1600 : 0 < S128x1600.numel
  shapeCasts_S128x1600_S128x1600 : S128x1600.ShapeCasts S128x1600
  inb_S1600x4800_S1600x4800_0_0 : ∀ a, (![0, 0] : Fin 2 → Nat) a + S1600x4800.size a ≤ S1600x4800.size a
  h_S1600x4800 : 0 < S1600x4800.numel
  shapeCasts_S1600x4800_S1600x4800 : S1600x4800.ShapeCasts S1600x4800
  inb_S1600x8_S1600x8_0_0 : ∀ a, (![0, 0] : Fin 2 → Nat) a + S1600x8.size a ≤ S1600x8.size a
  h_S1600x8 : 0 < S1600x8.numel
  shapeCasts_S1600x8_S1600x8 : S1600x8.ShapeCasts S1600x8
  inb_S8x4800_S8x4800_0_0 : ∀ a, (![0, 0] : Fin 2 → Nat) a + S8x4800.size a ≤ S8x4800.size a
  h_S8x4800 : 0 < S8x4800.numel
  shapeCasts_S8x4800_S8x4800 : S8x4800.ShapeCasts S8x4800
  inb_S1x4800_S1x4800_0_0 : ∀ a, (![0, 0] : Fin 2 → Nat) a + S1x4800.size a ≤ S1x4800.size a
  h_S1x4800 : 0 < S1x4800.numel
  shapeCasts_S1x4800_S1x4800 : S1x4800.ShapeCasts S1x4800
  broadcasts_S1x4800_S128x4800 : S1x4800.Broadcasts S128x4800
  inb_S128x4800_S128x4800_0_0 : ∀ a, (![0, 0] : Fin 2 → Nat) a + S128x4800.size a ≤ S128x4800.size a
  h_S128x4800 : 0 < S128x4800.numel
  shapeCasts_S8192x4800_S4x2048x4800 : S8192x4800.ShapeCasts S4x2048x4800
  dot_S128x1600_S1600x4800_S128x4800_1_0_0_1_n_n_wf : DotDims.WF S128x1600 S1600x4800 S128x4800 [1] [0] [0] [1] [] []
  dot_S128x1600_S1600x8_S128x8_1_0_0_1_n_n_wf : DotDims.WF S128x1600 S1600x8 S128x8 [1] [0] [0] [1] [] []
  dot_S128x8_S8x4800_S128x4800_1_0_0_1_n_n_wf : DotDims.WF S128x8 S8x4800 S128x4800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1600.size a ≤ S8192x1600.size a
  hwx0_0 : ∀ i : grid0.Coords, EltTy.bits .f32 = 32 ∨ (Rect.block (s := S8192x1600) S128x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1600x4800.size a ≤ S1600x4800.size a
  hwx0_1 : ∀ i : grid0.Coords, EltTy.bits .bf16 = 32 ∨ (Rect.block (s := S1600x4800) S1600x4800.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4800.size a ≤ S1x4800.size a
  hwx0_2 : ∀ i : grid0.Coords, EltTy.bits .f32 = 32 ∨ (Rect.block (s := S1x4800) S1x4800.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x8.size a ≤ S1600x8.size a
  hwx0_3 : ∀ i : grid0.Coords, EltTy.bits .bf16 = 32 ∨ (Rect.block (s := S1600x8) S1600x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x4800.size a ≤ S8x4800.size a
  hwx0_4 : ∀ i : grid0.Coords, EltTy.bits .bf16 = 32 ∨ (Rect.block (s := S8x4800) S8x4800.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4800.size a ≤ S8192x4800.size a
  hwx0_5 : ∀ i : grid0.Coords, EltTy.bits .f32 = 32 ∨ (Rect.block (s := S8192x4800) S128x4800.size (cc0_transform_5 i) (hinb0_5 i)).WholeWords (EltTy.packing .f32)

variable [Facts₀]

def dot_S128x1600_S1600x4800_S128x4800_1_0_0_1_n_n : DotDims S128x1600 S1600x4800 S128x4800 where
  lhsContracting := [1]
  rhsContracting := [0]
  lhsNonContracting := [0]
  rhsNonContracting := [1]
  lhsBatch := []
  rhsBatch := []
  wf := dot_S128x1600_S1600x4800_S128x4800_1_0_0_1_n_n_wf
def dot_S128x1600_S1600x8_S128x8_1_0_0_1_n_n : DotDims S128x1600 S1600x8 S128x8 where
  lhsContracting := [1]
  rhsContracting := [0]
  lhsNonContracting := [0]
  rhsNonContracting := [1]
  lhsBatch := []
  rhsBatch := []
  wf := dot_S128x1600_S1600x8_S128x8_1_0_0_1_n_n_wf
def dot_S128x8_S8x4800_S128x4800_1_0_0_1_n_n : DotDims S128x8 S8x4800 S128x4800 where
  lhsContracting := [1]
  rhsContracting := [0]
  lhsNonContracting := [0]
  rhsNonContracting := [1]
  lhsBatch := []
  rhsBatch := []
  wf := dot_S128x8_S8x4800_S128x4800_1_0_0_1_n_n_wf

abbrev win0_0 : Pipeline.Window sig grid0 :=
  Pipeline.Window.ofSpec (Memref.whole main_v0) S128x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1600x4800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1600x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x4800.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x4800.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S4x2048x4800 : Shape := ⟨3, ![4, 2048, 4800]⟩
abbrev S1x1x4800 : Shape := ⟨3, ![1, 1, 4800]⟩
abbrev S4x2048x8 : Shape := ⟨3, ![4, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S1600x4800, .f32⟩
  | .hbm, ⟨2, _⟩ => ⟨S4800, .f32⟩
  | .hbm, ⟨3, _⟩ => ⟨S1600x8, .f32⟩
  | .hbm, ⟨4, _⟩ => ⟨S8x4800, .f32⟩
  | .hbm, ⟨5, _⟩ => ⟨S4x2048x4800, .f32⟩
  | .hbm, ⟨6, _⟩ => ⟨S1x1x4800, .f32⟩
  | .hbm, ⟨7, _⟩ => ⟨S4x2048x4800, .f32⟩
  | .hbm, ⟨8, _⟩ => ⟨S4x2048x4800, .f32⟩
  | .hbm, ⟨9, _⟩ => ⟨S4x2048x8, .f32⟩
  | .hbm, ⟨10, _⟩ => ⟨S4x2048x4800, .f32⟩
  | .hbm, ⟨11, _⟩ => ⟨S_, .f32⟩
  | .hbm, ⟨12, _⟩ => ⟨S4x2048x4800, .f32⟩
  | .hbm, ⟨13, _⟩ => ⟨S4x2048x4800, .f32⟩
  | .hbm, ⟨14, _⟩ => ⟨S4x2048x4800, .f32⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4800_S1x1x4800_2 : S4800.BroadcastsInDim S1x1x4800 (![2] : Fin 1 → Fin S1x1x4800.rank)
  bcast_S1x1x4800_S4x2048x4800_0_1_2 : S1x1x4800.BroadcastsInDim S4x2048x4800 (![0, 1, 2] : Fin 3 → Fin S4x2048x4800.rank)
  bcast_S_S4x2048x4800 : S_.BroadcastsInDim S4x2048x4800 (![] : Fin 0 → Fin S4x2048x4800.rank)
  dot_S4x2048x1600_S1600x4800_S4x2048x4800_2_0_01_1_n_n_wf : DotDims.WF S4x2048x1600 S1600x4800 S4x2048x4800 [2] [0] [0, 1] [1] [] []
  dot_S4x2048x1600_S1600x8_S4x2048x8_2_0_01_1_n_n_wf : DotDims.WF S4x2048x1600 S1600x8 S4x2048x8 [2] [0] [0, 1] [1] [] []
  dot_S4x2048x8_S8x4800_S4x2048x4800_2_0_01_1_n_n_wf : DotDims.WF S4x2048x8 S8x4800 S4x2048x4800 [2] [0] [0, 1] [1] [] []

variable [Facts₀]

def dot_S4x2048x1600_S1600x4800_S4x2048x4800_2_0_01_1_n_n : DotDims S4x2048x1600 S1600x4800 S4x2048x4800 where
  lhsContracting := [2]
  rhsContracting := [0]
  lhsNonContracting := [0, 1]
  rhsNonContracting := [1]
  lhsBatch := []
  rhsBatch := []
  wf := dot_S4x2048x1600_S1600x4800_S4x2048x4800_2_0_01_1_n_n_wf
def dot_S4x2048x1600_S1600x8_S4x2048x8_2_0_01_1_n_n : DotDims S4x2048x1600 S1600x8 S4x2048x8 where
  lhsContracting := [2]
  rhsContracting := [0]
  lhsNonContracting := [0, 1]
  rhsNonContracting := [1]
  lhsBatch := []
  rhsBatch := []
  wf := dot_S4x2048x1600_S1600x8_S4x2048x8_2_0_01_1_n_n_wf
def dot_S4x2048x8_S8x4800_S4x2048x4800_2_0_01_1_n_n : DotDims S4x2048x8 S8x4800 S4x2048x4800 where
  lhsContracting := [2]
  rhsContracting := [0]
  lhsNonContracting := [0, 1]
  rhsNonContracting := [1]
  lhsBatch := []
  rhsBatch := []
  wf := dot_S4x2048x8_S8x4800_S4x2048x4800_2_0_01_1_n_n_wf

class Facts : Prop extends Facts₀ where

variable [Facts]
-- ==== Proof.Spec.lean ====
/-
  The fused projection as one function of its five argument arrays, over the extended reals.

  For a token `(a, s)` and an output feature `f` the layer computes

      (Σ_k x[a,s,k] · W[k,f] + bias[f]) + (Σ_r (Σ_k x[a,s,k] · A[k,r]) · B[r,f]) · 4

  where the low-rank pair `A` (1600 × 8) and `B` (8 × 4800) is the adapter and `4 = alpha / rank` is one binary32
  word, the same in both programs, so it is never evaluated. The dense product, the bias, the adapter product and
  the scaling are added in this order on both sides: no law of the extended reals beyond re-indexing a finite sum
  is used, and no finiteness of the inputs.

  Two spellings of the function are needed. `rows` acts on a stack of `R` token rows laid out as an `R × 1600`
  matrix with the bias as a `1 × 4800` row: with `R = 128` it is what one grid point computes from its block of
  tokens, with `R = 8192` it is the whole flattened batch. `layer` acts on the `4 × 2048 × 1600` batch itself. Flattening
  the batch's two leading axes and unflattening the result turns the one into the other (`layer_of_rows`), because a
  token's row number in the flattened batch is `a · 2048 + s`.
-/
import Idealize.ShloMosaic.PureOps.Ideal
import Idealize.ShloMosaic.Lib.ValueIdx
import Idealize.ShloMosaic.Lib.ValueLayout
import Idealize.ShloMosaic.Lib.Pipeline.Value

noncomputable section

namespace Cert.Lora

open Idealize.ShloMosaic Idealize.ShloMosaic.ValueIdx

/-- `alpha / rank`, as the binary32 word both programs carry. -/
def scale : EReal := Ideal.ofBits .f32 0x40800000#32

/-- Entry `(p, q)` of the layer applied to a stack of `R` token rows: the dense product of row `p` with column `q` of
    `W`, plus the bias at `q`, plus the scaled product through the rank-8 adapter. -/
def rowEntry {R : Nat} (xs : (⟨2, ![R, 1600]⟩ : Shape).Idx → EReal) (W : (⟨2, ![1600, 4800]⟩ : Shape).Idx → EReal)
    (bias : (⟨2, ![1, 4800]⟩ : Shape).Idx → EReal) (A : (⟨2, ![1600, 8]⟩ : Shape).Idx → EReal)
    (B : (⟨2, ![8, 4800]⟩ : Shape).Idx → EReal) (p : Fin R) (q : Fin 4800) : EReal :=
  ((∑ k : Fin 1600, xs (ix2 p k) * W (ix2 k q)) + bias (ix2 (0 : Fin 1) q))
    + (∑ r : Fin 8, (∑ k : Fin 1600, xs (ix2 p k) * A (ix2 k r)) * B (ix2 r q)) * scale

/-- The layer on a stack of `R` token rows, as an `R × 4800` matrix. -/
def rows {R : Nat} (xs : (⟨2, ![R, 1600]⟩ : Shape).Idx → EReal) (W : (⟨2, ![1600, 4800]⟩ : Shape).Idx → EReal)
    (bias : (⟨2, ![1, 4800]⟩ : Shape).Idx → EReal) (A : (⟨2, ![1600, 8]⟩ : Shape).Idx → EReal)
    (B : (⟨2, ![8, 4800]⟩ : Shape).Idx → EReal) : (⟨2, ![R, 4800]⟩ : Shape).Idx → EReal :=
  fun j => rowEntry xs W bias A B (j 0) (j 1)

/-- An entry of the layer depends on the token rows only through the entry's own row: two stacks that agree on one
    row each give the same entries along it. -/
theorem rowEntry_congr {R R' : Nat} (xs : (⟨2, ![R, 1600]⟩ : Shape).Idx → EReal) (xs' : (⟨2, ![R', 1600]⟩ : Shape).Idx → EReal)
    (W : (⟨2, ![1600, 4800]⟩ : Shape).Idx → EReal) (bias : (⟨2, ![1, 4800]⟩ : Shape).Idx → EReal)
    (A : (⟨2, ![1600, 8]⟩ : Shape).Idx → EReal) (B : (⟨2, ![8, 4800]⟩ : Shape).Idx → EReal)
    (p : Fin R) (p' : Fin R') (q : Fin 4800) (h : ∀ k : Fin 1600, xs (ix2 p k) = xs' (ix2 p' k)) :
    rowEntry xs W bias A B p q = rowEntry xs' W bias A B p' q := by
  unfold rowEntry
  simp only [h]

/-- Entry `(a, s, f)` of the layer applied to the batch: token `(a, s)`, feature `f`. -/
def tokenEntry (x : (⟨3, ![4, 2048, 1600]⟩ : Shape).Idx → EReal) (W : (⟨2, ![1600, 4800]⟩ : Shape).Idx → EReal)
    (bias : (⟨1, ![4800]⟩ : Shape).Idx → EReal) (A : (⟨2, ![1600, 8]⟩ : Shape).Idx → EReal)
    (B : (⟨2, ![8, 4800]⟩ : Shape).Idx → EReal) (a : Fin 4) (s : Fin 2048) (f : Fin 4800) : EReal :=
  ((∑ k : Fin 1600, x (ix3 a s k) * W (ix2 k f)) + bias (ix1 f))
    + (∑ r : Fin 8, (∑ k : Fin 1600, x (ix3 a s k) * A (ix2 k r)) * B (ix2 r f)) * scale

/-- The layer on the batch. -/
def layer (x : (⟨3, ![4, 2048, 1600]⟩ : Shape).Idx → EReal) (W : (⟨2, ![1600, 4800]⟩ : Shape).Idx → EReal)
    (bias : (⟨1, ![4800]⟩ : Shape).Idx → EReal) (A : (⟨2, ![1600, 8]⟩ : Shape).Idx → EReal)
    (B : (⟨2, ![8, 4800]⟩ : Shape).Idx → EReal) : (⟨3, ![4, 2048, 4800]⟩ : Shape).Idx → EReal :=
  fun i => tokenEntry x W bias A B (i 0) (i 1) (i 2)

/-- Row `a · 2048 + s` of the flattened batch is token `(a, s)`. -/
theorem flat_token (x : (⟨3, ![4, 2048, 1600]⟩ : Shape).Idx → EReal)
    (h : (⟨3, ![4, 2048, 1600]⟩ : Shape).ShapeCasts ⟨2, ![8192, 1600]⟩)
    (a : Fin 4) (s : Fin 2048) (hp : a.val * 2048 + s.val < 8192) (k : Fin 1600) :
    shapeCast ⟨2, ![8192, 1600]⟩ x h (ix2 (⟨a.val * 2048 + s.val, hp⟩ : Fin 8192) k) = x (ix3 a s k) :=
  shapeCast_apply x h _ _ (by
    rw [Shape.rowMajor_val_three, Shape.rowMajor_val_two]
    rfl)

/-- Flatten the batch, apply the layer to its 8192 rows with the bias as a row, unflatten: the layer on the batch. -/
theorem layer_of_rows (x : (⟨3, ![4, 2048, 1600]⟩ : Shape).Idx → EReal) (W : (⟨2, ![1600, 4800]⟩ : Shape).Idx → EReal)
    (bias : (⟨1, ![4800]⟩ : Shape).Idx → EReal) (A : (⟨2, ![1600, 8]⟩ : Shape).Idx → EReal)
    (B : (⟨2, ![8, 4800]⟩ : Shape).Idx → EReal)
    (hx : (⟨3, ![4, 2048, 1600]⟩ : Shape).ShapeCasts ⟨2, ![8192, 1600]⟩)
    (hb : (⟨1, ![4800]⟩ : Shape).ShapeCasts ⟨2, ![1, 4800]⟩)
    (ho : (⟨2, ![8192, 4800]⟩ : Shape).ShapeCasts ⟨3, ![4, 2048, 4800]⟩) :
    shapeCast ⟨3, ![4, 2048, 4800]⟩
        (rows (R := 8192) (shapeCast ⟨2, ![8192, 1600]⟩ x hx) W (shapeCast ⟨2, ![1, 4800]⟩ bias hb) A B) ho
      = layer x W bias A B := by
  funext i
  obtain ⟨a, s, f, rfl⟩ : ∃ (a : Fin 4) (s : Fin 2048) (f : Fin 4800), i = ix3 a s f := ⟨i 0, i 1, i 2, eq_ix3 i⟩
  have hp : a.val * 2048 + s.val < 8192 := by have := a.isLt; have := s.isLt; omega
  rw [shapeCast_apply _ ho (ix3 a s f) (ix2 (⟨a.val * 2048 + s.val, hp⟩ : Fin 8192) f) (by
    rw [Shape.rowMajor_val_two, Shape.rowMajor_val_three]
    rfl)]
  show rowEntry _ W _ A B (⟨a.val * 2048 + s.val, hp⟩ : Fin 8192) f = tokenEntry x W bias A B a s f
  unfold rowEntry tokenEntry
  simp only [flat_token x hx a s hp, shapeCast_a_1a_apply]

end Cert.Lora

end
-- ==== Proof.RefValue.lean ====
/-
  The reference computes `Cert.Lora.layer`.

  Its program is ten host operations: the dense product as one `dot_general` contracting the feature axis of the batch
  against the rows of `W`, the bias broadcast along the two token axes and added, the adapter as two further
  `dot_general`s (1600 → 8 → 4800), the scale 4 broadcast from a scalar and multiplied in, and the final sum. Read at an
  index `(a, s, f)` each contraction is a sum over its one contracted axis, and the operand indices the generated
  read-at-an-index lemmas name are `(a, s, k)`, `(k, f)`, `(k, r)`, `(r, f)` and, for the bias, `f`: exactly the indices
  `Cert.Lora.tokenEntry` is written with.
-/
import proofs.«134206_j6158983102942_1_alg».proof.Proof.Gen.ReferenceIdeal.Read
import proofs.«134206_j6158983102942_1_alg».proof.Proof.Spec

noncomputable section

namespace Cert.ReferenceIdeal.RefValue

open Cert.ReferenceIdeal Cert.ReferenceIdeal.Read Idealize.ShloMosaic Idealize.ShloMosaic.ValueIdx

/-! ## The operand indices, coordinate by coordinate -/

theorem dense_lhs (a : Fin 4) (s : Fin 2048) (f : Fin 4800) (k : Fin 1600) :
    lidx_main_v0 (ix3 a s f) k = ix3 a s k := by
  funext d; match d with | ⟨0, _⟩ => rfl | ⟨1, _⟩ => rfl | ⟨2, _⟩ => rfl

theorem dense_rhs (a : Fin 4) (s : Fin 2048) (f : Fin 4800) (k : Fin 1600) :
    ridx_main_v0 (ix3 a s f) k = ix2 k f := by
  funext d; match d with | ⟨0, _⟩ => rfl | ⟨1, _⟩ => rfl

theorem bias_idx (a : Fin 4) (s : Fin 2048) (f : Fin 4800) :
    idx_main_v1 (idx_main_v2 (ix3 a s f)) = ix1 f := by
  funext d; match d with | ⟨0, _⟩ => rfl

theorem down_lhs (a : Fin 4) (s : Fin 2048) (r : Fin 8) (k : Fin 1600) :
    lidx_main_v4 (ix3 a s r) k = ix3 a s k := by
  funext d; match d with | ⟨0, _⟩ => rfl | ⟨1, _⟩ => rfl | ⟨2, _⟩ => rfl

theorem down_rhs (a : Fin 4) (s : Fin 2048) (r : Fin 8) (k : Fin 1600) :
    ridx_main_v4 (ix3 a s r) k = ix2 k r := by
  funext d; match d with | ⟨0, _⟩ => rfl | ⟨1, _⟩ => rfl

theorem up_lhs (a : Fin 4) (s : Fin 2048) (f : Fin 4800) (r : Fin 8) :
    lidx_main_v5 (ix3 a s f) r = ix3 a s r := by
  funext d; match d with | ⟨0, _⟩ => rfl | ⟨1, _⟩ => rfl | ⟨2, _⟩ => rfl

theorem up_rhs (a : Fin 4) (s : Fin 2048) (f : Fin 4800) (r : Fin 8) :
    ridx_main_v5 (ix3 a s f) r = ix2 r f := by
  funext d; match d with | ⟨0, _⟩ => rfl | ⟨1, _⟩ => rfl

/-! ## The last stage is the layer -/

/-- The reference's result, as the generated stages compose it, is the layer of its five arguments: at `(a, s, f)` the
    dense sum over `k`, plus the bias at `f`, plus four times the sum over the adapter's eight channels `r` of the
    down-projection's sum over `k` times `B[r, f]`. -/
theorem result_eq (x : (⟨S4x2048x1600, .f32⟩ : BufTy).Contents (Elt Ideal)) (W : (⟨S1600x4800, .f32⟩ : BufTy).Contents (Elt Ideal))
    (bias : (⟨S4800, .f32⟩ : BufTy).Contents (Elt Ideal)) (A : (⟨S1600x8, .f32⟩ : BufTy).Contents (Elt Ideal))
    (B : (⟨S8x4800, .f32⟩ : BufTy).Contents (Elt Ideal)) :
    val_main_v8 (F := Ideal) x W bias A B = Cert.Lora.layer x W bias A B := by
  funext i
  obtain ⟨a, s, f, rfl⟩ : ∃ (a : Fin 4) (s : Fin 2048) (f : Fin 4800), i = ix3 a s f := ⟨i 0, i 1, i 2, eq_ix3 i⟩
  rw [val_main_v8_apply, val_main_v3_apply, val_main_v7_apply, val_main_v0_apply, val_main_v2_apply, val_main_v1_apply,
    val_main_v5_apply, val_main_v6_apply, val_main_cst_apply]
  simp only [val_main_v4_apply, dense_lhs, dense_rhs, bias_idx, down_lhs, down_rhs, up_lhs, up_rhs]
  rfl

end Cert.ReferenceIdeal.RefValue

end
-- ==== Proof.Payload.lean ====
/-
  What one grid point computes from its blocks is `Cert.Lora.rows` on 128 token rows.

  The body loads its block of 128 token rows and the four parameter arrays whole, and stores ONE value: the sum
  `(x·W + bias) + ((x·A)·B)·4`, the three products issued to the matrix unit into zero accumulators, the bias row
  broadcast down the 128 rows. Read at an entry `(p, q)` over the extended reals, a product into the zero accumulator
  is the plain sum over its contracted axis, a narrowing to bfloat16 is the identity, and the body's shape casts
  are casts of a shape to itself. The three products differ only in their extents (128×1600·1600×4800,
  128×1600·1600×8, 128×8·8×4800); each is read through its own dimension record, whose two operand index maps are
  named coordinate by coordinate: the left operand at (row of the result, contracted position), the right at
  (contracted position, column of the result).
-/
import proofs.«134206_j6158983102942_1_alg».proof.Proof.Gen.KernelIdeal.Skeleton
import proofs.«134206_j6158983102942_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The dense product, 128×1600 by 1600×4800 -/

theorem dense_lhs_0 (i : S128x4800.Idx) (q : dot_S128x1600_S1600x4800_S128x4800_1_0_0_1_n_n.contr.Idx) :
    (dot_S128x1600_S1600x4800_S128x4800_1_0_0_1_n_n.lhsIdx i q 0).val = (i 0).val := by
  unfold DotDims.lhsIdx
  rw [dif_neg (show ¬(0 : Fin S128x1600.rank) ∈ dot_S128x1600_S1600x4800_S128x4800_1_0_0_1_n_n.lhsBatch by decide), dif_pos (show (0 : Fin S128x1600.rank) ∈ dot_S128x1600_S1600x4800_S128x4800_1_0_0_1_n_n.lhsNonContracting by decide)]
  rfl
theorem dense_lhs_1 (i : S128x4800.Idx) (q : dot_S128x1600_S1600x4800_S128x4800_1_0_0_1_n_n.contr.Idx) :
    (dot_S128x1600_S1600x4800_S128x4800_1_0_0_1_n_n.lhsIdx i q 1).val = (q ⟨0, by decide⟩).val :=
  dot_S128x1600_S1600x4800_S128x4800_1_0_0_1_n_n.lhsIdx_val_of_single rfl i q
theorem dense_rhs_0 (i : S128x4800.Idx) (q : dot_S128x1600_S1600x4800_S128x4800_1_0_0_1_n_n.contr.Idx) :
    (dot_S128x1600_S1600x4800_S128x4800_1_0_0_1_n_n.rhsIdx i q 0).val = (q ⟨0, by decide⟩).val :=
  dot_S128x1600_S1600x4800_S128x4800_1_0_0_1_n_n.rhsIdx_val_of_single rfl i q
theorem dense_rhs_1 (i : S128x4800.Idx) (q : dot_S128x1600_S1600x4800_S128x4800_1_0_0_1_n_n.contr.Idx) :
    (dot_S128x1600_S1600x4800_S128x4800_1_0_0_1_n_n.rhsIdx i q 1).val = (i 1).val := by
  unfold DotDims.rhsIdx
  rw [dif_neg (show ¬(1 : Fin S1600x4800.rank) ∈ dot_S128x1600_S1600x4800_S128x4800_1_0_0_1_n_n.rhsBatch by decide), dif_pos (show (1 : Fin S1600x4800.rank) ∈ dot_S128x1600_S1600x4800_S128x4800_1_0_0_1_n_n.rhsNonContracting by decide)]
  rfl

/-- Entry `(p, q)` of the dense product into the zero accumulator: row `p` of the left operand against column `q` of the
    right, summed over the 1600 input features. -/
theorem dense_apply (l : FVec Ideal S128x1600 .bf16) (r : FVec Ideal S1600x4800 .bf16) (p : Fin 128) (q : Fin 4800) :
    matmul dot_S128x1600_S1600x4800_S128x4800_1_0_0_1_n_n none l r (constant S128x4800 .f32 0x00000000#32) (ix2 p q)
      = ∑ k : Fin 1600, l (ix2 p k) * r (ix2 k q) := by
  refine (Ideal.matmul_constant_zero_apply dot_S128x1600_S1600x4800_S128x4800_1_0_0_1_n_n none l r (ix2 p q)).trans ?_
  rw [← Equiv.sum_comp (contrEquiv1 dot_S128x1600_S1600x4800_S128x4800_1_0_0_1_n_n 1600 rfl rfl).symm]
  refine Finset.sum_congr rfl fun k _ => ?_
  have hk := contrEquiv1_symm_val dot_S128x1600_S1600x4800_S128x4800_1_0_0_1_n_n 1600 rfl rfl k
  have el : dot_S128x1600_S1600x4800_S128x4800_1_0_0_1_n_n.lhsIdx (ix2 p q) ((contrEquiv1 dot_S128x1600_S1600x4800_S128x4800_1_0_0_1_n_n 1600 rfl rfl).symm k) = ix2 p k := funext fun a => Fin.ext (by
    match a with
    | ⟨0, _⟩ => exact dense_lhs_0 _ _
    | ⟨1, _⟩ => exact (dense_lhs_1 _ _).trans hk)
  have er : dot_S128x1600_S1600x4800_S128x4800_1_0_0_1_n_n.rhsIdx (ix2 p q) ((contrEquiv1 dot_S128x1600_S1600x4800_S128x4800_1_0_0_1_n_n 1600 rfl rfl).symm k) = ix2 k q := funext fun a => Fin.ext (by
    match a with
    | ⟨0, _⟩ => exact (dense_rhs_0 _ _).trans hk
    | ⟨1, _⟩ => exact dense_rhs_1 _ _)
  rw [el, er]

/-! ## The adapter's down-projection, 128×1600 by 1600×8 -/

theorem down_lhs_0 (i : S128x8.Idx) (q : dot_S128x1600_S1600x8_S128x8_1_0_0_1_n_n.contr.Idx) :
    (dot_S128x1600_S1600x8_S128x8_1_0_0_1_n_n.lhsIdx i q 0).val = (i 0).val := by
  unfold DotDims.lhsIdx
  rw [dif_neg (show ¬(0 : Fin S128x1600.rank) ∈ dot_S128x1600_S1600x8_S128x8_1_0_0_1_n_n.lhsBatch by decide), dif_pos (show (0 : Fin S128x1600.rank) ∈ dot_S128x1600_S1600x8_S128x8_1_0_0_1_n_n.lhsNonContracting by decide)]
  rfl
theorem down_lhs_1 (i : S128x8.Idx) (q : dot_S128x1600_S1600x8_S128x8_1_0_0_1_n_n.contr.Idx) :
    (dot_S128x1600_S1600x8_S128x8_1_0_0_1_n_n.lhsIdx i q 1).val = (q ⟨0, by decide⟩).val :=
  dot_S128x1600_S1600x8_S128x8_1_0_0_1_n_n.lhsIdx_val_of_single rfl i q
theorem down_rhs_0 (i : S128x8.Idx) (q : dot_S128x1600_S1600x8_S128x8_1_0_0_1_n_n.contr.Idx) :
    (dot_S128x1600_S1600x8_S128x8_1_0_0_1_n_n.rhsIdx i q 0).val = (q ⟨0, by decide⟩).val :=
  dot_S128x1600_S1600x8_S128x8_1_0_0_1_n_n.rhsIdx_val_of_single rfl i q
theorem down_rhs_1 (i : S128x8.Idx) (q : dot_S128x1600_S1600x8_S128x8_1_0_0_1_n_n.contr.Idx) :
    (dot_S128x1600_S1600x8_S128x8_1_0_0_1_n_n.rhsIdx i q 1).val = (i 1).val := by
  unfold DotDims.rhsIdx
  rw [dif_neg (show ¬(1 : Fin S1600x8.rank) ∈ dot_S128x1600_S1600x8_S128x8_1_0_0_1_n_n.rhsBatch by decide), dif_pos (show (1 : Fin S1600x8.rank) ∈ dot_S128x1600_S1600x8_S128x8_1_0_0_1_n_n.rhsNonContracting by decide)]
  rfl

/-- Entry `(p, c)` of the down-projection into the zero accumulator: row `p` against column `c` of `A`, summed over
    the 1600 input features. -/
theorem down_apply (l : FVec Ideal S128x1600 .bf16) (r : FVec Ideal S1600x8 .bf16) (p : Fin 128) (c : Fin 8) :
    matmul dot_S128x1600_S1600x8_S128x8_1_0_0_1_n_n none l r (constant S128x8 .f32 0x00000000#32) (ix2 p c)
      = ∑ k : Fin 1600, l (ix2 p k) * r (ix2 k c) := by
  refine (Ideal.matmul_constant_zero_apply dot_S128x1600_S1600x8_S128x8_1_0_0_1_n_n none l r (ix2 p c)).trans ?_
  rw [← Equiv.sum_comp (contrEquiv1 dot_S128x1600_S1600x8_S128x8_1_0_0_1_n_n 1600 rfl rfl).symm]
  refine Finset.sum_congr rfl fun k _ => ?_
  have hk := contrEquiv1_symm_val dot_S128x1600_S1600x8_S128x8_1_0_0_1_n_n 1600 rfl rfl k
  have el : dot_S128x1600_S1600x8_S128x8_1_0_0_1_n_n.lhsIdx (ix2 p c) ((contrEquiv1 dot_S128x1600_S1600x8_S128x8_1_0_0_1_n_n 1600 rfl rfl).symm k) = ix2 p k := funext fun a => Fin.ext (by
    match a with
    | ⟨0, _⟩ => exact down_lhs_0 _ _
    | ⟨1, _⟩ => exact (down_lhs_1 _ _).trans hk)
  have er : dot_S128x1600_S1600x8_S128x8_1_0_0_1_n_n.rhsIdx (ix2 p c) ((contrEquiv1 dot_S128x1600_S1600x8_S128x8_1_0_0_1_n_n 1600 rfl rfl).symm k) = ix2 k c := funext fun a => Fin.ext (by
    match a with
    | ⟨0, _⟩ => exact (down_rhs_0 _ _).trans hk
    | ⟨1, _⟩ => exact down_rhs_1 _ _)
  rw [el, er]

/-! ## The adapter's up-projection, 128×8 by 8×4800 -/

theorem up_lhs_0 (i : S128x4800.Idx) (q : dot_S128x8_S8x4800_S128x4800_1_0_0_1_n_n.contr.Idx) :
    (dot_S128x8_S8x4800_S128x4800_1_0_0_1_n_n.lhsIdx i q 0).val = (i 0).val := by
  unfold DotDims.lhsIdx
  rw [dif_neg (show ¬(0 : Fin S128x8.rank) ∈ dot_S128x8_S8x4800_S128x4800_1_0_0_1_n_n.lhsBatch by decide), dif_pos (show (0 : Fin S128x8.rank) ∈ dot_S128x8_S8x4800_S128x4800_1_0_0_1_n_n.lhsNonContracting by decide)]
  rfl
theorem up_lhs_1 (i : S128x4800.Idx) (q : dot_S128x8_S8x4800_S128x4800_1_0_0_1_n_n.contr.Idx) :
    (dot_S128x8_S8x4800_S128x4800_1_0_0_1_n_n.lhsIdx i q 1).val = (q ⟨0, by decide⟩).val :=
  dot_S128x8_S8x4800_S128x4800_1_0_0_1_n_n.lhsIdx_val_of_single rfl i q
theorem up_rhs_0 (i : S128x4800.Idx) (q : dot_S128x8_S8x4800_S128x4800_1_0_0_1_n_n.contr.Idx) :
    (dot_S128x8_S8x4800_S128x4800_1_0_0_1_n_n.rhsIdx i q 0).val = (q ⟨0, by decide⟩).val :=
  dot_S128x8_S8x4800_S128x4800_1_0_0_1_n_n.rhsIdx_val_of_single rfl i q
theorem up_rhs_1 (i : S128x4800.Idx) (q : dot_S128x8_S8x4800_S128x4800_1_0_0_1_n_n.contr.Idx) :
    (dot_S128x8_S8x4800_S128x4800_1_0_0_1_n_n.rhsIdx i q 1).val = (i 1).val := by
  unfold DotDims.rhsIdx
  rw [dif_neg (show ¬(1 : Fin S8x4800.rank) ∈ dot_S128x8_S8x4800_S128x4800_1_0_0_1_n_n.rhsBatch by decide), dif_pos (show (1 : Fin S8x4800.rank) ∈ dot_S128x8_S8x4800_S128x4800_1_0_0_1_n_n.rhsNonContracting by decide)]
  rfl

/-- Entry `(p, q)` of the up-projection into the zero accumulator: row `p` of the 128×8 intermediate against column `q`
    of `B`, summed over the adapter's eight channels. -/
theorem up_apply (l : FVec Ideal S128x8 .bf16) (r : FVec Ideal S8x4800 .bf16) (p : Fin 128) (q : Fin 4800) :
    matmul dot_S128x8_S8x4800_S128x4800_1_0_0_1_n_n none l r (constant S128x4800 .f32 0x00000000#32) (ix2 p q)
      = ∑ c : Fin 8, l (ix2 p c) * r (ix2 c q) := by
  refine (Ideal.matmul_constant_zero_apply dot_S128x8_S8x4800_S128x4800_1_0_0_1_n_n none l r (ix2 p q)).trans ?_
  rw [← Equiv.sum_comp (contrEquiv1 dot_S128x8_S8x4800_S128x4800_1_0_0_1_n_n 8 rfl rfl).symm]
  refine Finset.sum_congr rfl fun c _ => ?_
  have hc := contrEquiv1_symm_val dot_S128x8_S8x4800_S128x4800_1_0_0_1_n_n 8 rfl rfl c
  have el : dot_S128x8_S8x4800_S128x4800_1_0_0_1_n_n.lhsIdx (ix2 p q) ((contrEquiv1 dot_S128x8_S8x4800_S128x4800_1_0_0_1_n_n 8 rfl rfl).symm c) = ix2 p c := funext fun a => Fin.ext (by
    match a with
    | ⟨0, _⟩ => exact up_lhs_0 _ _
    | ⟨1, _⟩ => exact (up_lhs_1 _ _).trans hc)
  have er : dot_S128x8_S8x4800_S128x4800_1_0_0_1_n_n.rhsIdx (ix2 p q) ((contrEquiv1 dot_S128x8_S8x4800_S128x4800_1_0_0_1_n_n 8 rfl rfl).symm c) = ix2 c q := funext fun a => Fin.ext (by
    match a with
    | ⟨0, _⟩ => exact (up_rhs_0 _ _).trans hc
    | ⟨1, _⟩ => exact up_rhs_1 _ _)
  rw [el, er]

/-! ## The stored value -/

/-- The value the body stores, as a function of the five blocks it loads, is the layer on the block's 128 token
    rows. (The body's loads come in the order tokens, `W`, `A`, `B`, bias.) -/
theorem stored_eq (xs : Vec Ideal S128x1600 .f32) (W : Vec Ideal S1600x4800 .bf16) (A : Vec Ideal S1600x8 .bf16)
    (B : Vec Ideal S8x4800 .bf16) (bias : Vec Ideal S1x4800 .f32) :
    k0_pay1 (F := Ideal) xs W A B bias = Cert.Lora.rows (R := 128) xs W bias A B := by
  funext j
  obtain ⟨p, q, rfl⟩ : ∃ (p : Fin 128) (q : Fin 4800), j = ix2 p q := ⟨j 0, j 1, eq_ix2 j⟩
  unfold k0_pay1
  simp only [shapeCast_self]
  rw [addf_apply, addf_apply, mulf_apply, broadcast_apply, dense_apply, up_apply, broadcastTo_1b_ab_apply]
  simp only [truncf_apply, down_apply]
  rfl

end Cert.KernelIdeal.Pay

end
-- ==== Proof.KernelValue.lean ====
/-
  What the kernel's program leaves in its result: `Cert.Lora.layer` of the five argument arrays.

  The program flattens the batch to 8192 token rows, narrows the three weight arrays to bfloat16 (the identity over
  the extended reals), views the bias as a 1 × 4800 row, runs one pipelined region over 64 grid points, and views the
  region's 8192 × 4800 result as 4 × 2048 × 4800.

  At grid point `t` the region stages rows `128·t … 128·t + 127` of the flattened batch and the four parameter arrays
  whole, and writes back rows `128·t … 128·t + 127` of its result. The body's stored value is the layer on its 128
  rows (`Pay.stored_eq`), and entry `(p, q)` of the layer depends on the token rows only through row `p`; so what
  point `t` writes back is block `t` of ONE array, the layer on all 8192 rows (`written_eq`). The 64 blocks tile the
  result (row `i` lies in block `i / 128`), so after the region the result array IS that array (`region_result`),
  and the flattening before and after the region turn it into the layer on the batch (`Cert.Lora.layer_of_rows`).
-/
import proofs.«134206_j6158983102942_1_alg».proof.Proof.Gen.KernelIdeal.Frame
import proofs.«134206_j6158983102942_1_alg».proof.Proof.Payload
import proofs.«134206_j6158983102942_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-! ## The arrays the region finds -/

/-- The flattened batch: 8192 token rows. -/
abbrev tokens (c : Dev nD) : Vec Ideal S8192x1600 .f32 := V m c main_v0
/-- The dense weight, narrowed. -/
abbrev dense (c : Dev nD) : Vec Ideal S1600x4800 .bf16 := V m c main_v1
/-- The bias as a row. -/
abbrev biasRow (c : Dev nD) : Vec Ideal S1x4800 .f32 := V m c main_v4
/-- The adapter's down-projection, narrowed. -/
abbrev down (c : Dev nD) : Vec Ideal S1600x8 .bf16 := V m c main_v2
/-- The adapter's up-projection, narrowed. -/
abbrev up (c : Dev nD) : Vec Ideal S8x4800 .bf16 := V m c main_v3

/-- The layer on all 8192 token rows: what the region's result array ends holding. -/
def allRows (c : Dev nD) : Vec Ideal S8192x4800 .f32 :=
  Cert.Lora.rows (R := 8192) (tokens m c) (dense m c) (biasRow m c) (down m c) (up m c)

theorem origin : (![0, 0] : Fin 2 → Nat) = fun _ => 0 := funext fun a => by fin_cases a <;> rfl

/-! ## The block each window stages at a point -/

/-- The printed index maps over the 64 points: the token window and the result window are at block row `t`, the four
    parameter windows stay at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem block_onto : ∀ b : Fin 64, ∃ t : Fin cfg0.N, win0_5.index t (0 : Fin 2) = b.val ∧ win0_5.index t (1 : Fin 2) = 0 :=
  (by decide +kernel : ∀ b : Fin 64, ∃ t : Fin grid0.N, win0_5.index t (0 : Fin 2) = b.val ∧ win0_5.index t (1 : Fin 2) = 0)

/-- The dense weight's window is the whole array at every point. -/
theorem dense_block (c : Dev nD) (t : Fin cfg0.N) : iblk m c 1 t = dense m c := by
  obtain ⟨-, -, e0, e1, -⟩ := block_index t
  funext y
  show V m c main_v1 (((cfg0.win 1).blk t).view.emb y) = V m c main_v1 y
  refine congrArg (V m c main_v1) (funext fun a => Fin.ext ?_)
  match a with
  | ⟨0, _⟩ => show win0_1.index t (0 : Fin 2) * 1600 + 1 * (y 0).val = (y 0).val; rw [e0]; omega
  | ⟨1, _⟩ => show win0_1.index t (1 : Fin 2) * 4800 + 1 * (y 1).val = (y 1).val; rw [e1]; omega

/-- The bias row's window is the whole row at every point. -/
theorem bias_block (c : Dev nD) (t : Fin cfg0.N) : iblk m c 2 t = biasRow m c := by
  obtain ⟨-, -, -, -, e0, e1, -⟩ := block_index t
  funext y
  show V m c main_v4 (((cfg0.win 2).blk t).view.emb y) = V m c main_v4 y
  refine congrArg (V m c main_v4) (funext fun a => Fin.ext ?_)
  match a with
  | ⟨0, _⟩ => show win0_2.index t (0 : Fin 2) * 1 + 1 * (y 0).val = (y 0).val; rw [e0]; omega
  | ⟨1, _⟩ => show win0_2.index t (1 : Fin 2) * 4800 + 1 * (y 1).val = (y 1).val; rw [e1]; omega

/-- The down-projection's window is the whole array at every point. -/
theorem down_block (c : Dev nD) (t : Fin cfg0.N) : iblk m c 3 t = down m c := by
  obtain ⟨-, -, -, -, -, -, e0, e1, -⟩ := block_index t
  funext y
  show V m c main_v2 (((cfg0.win 3).blk t).view.emb y) = V m c main_v2 y
  refine congrArg (V m c main_v2) (funext fun a => Fin.ext ?_)
  match a with
  | ⟨0, _⟩ => show win0_3.index t (0 : Fin 2) * 1600 + 1 * (y 0).val = (y 0).val; rw [e0]; omega
  | ⟨1, _⟩ => show win0_3.index t (1 : Fin 2) * 8 + 1 * (y 1).val = (y 1).val; rw [e1]; omega

/-- The up-projection's window is the whole array at every point. -/
theorem up_block (c : Dev nD) (t : Fin cfg0.N) : iblk m c 4 t = up m c := by
  obtain ⟨-, -, -, -, -, -, -, -, e0, e1, -⟩ := block_index t
  funext y
  show V m c main_v3 (((cfg0.win 4).blk t).view.emb y) = V m c main_v3 y
  refine congrArg (V m c main_v3) (funext fun a => Fin.ext ?_)
  match a with
  | ⟨0, _⟩ => show win0_4.index t (0 : Fin 2) * 8 + 1 * (y 0).val = (y 0).val; rw [e0]; omega
  | ⟨1, _⟩ => show win0_4.index t (1 : Fin 2) * 4800 + 1 * (y 1).val = (y 1).val; rw [e1]; omega

/-! ## What a point writes back -/

/-- WHAT POINT `t` WRITES BACK is block `t` of the layer on all 8192 rows: row `p` of the point's token block is row
    `128·t + p` of the flattened batch, which is also the row of the result that entry `(p, q)` of the written block
    lands on, and the parameter blocks are the parameter arrays. -/
theorem written_eq (c : Dev nD) (t : Fin cfg0.N) :
    (dats m 0 c).flushed 5 t = ((cfg0.win 5).blk t).view.read (Elt Ideal) (allRows m c) := by
  show (cfg0.win 5).cut (grid0.coords t) ((dats m 0 c).after 5 t) = _
  rw [after0_5]
  unfold out0_5
  rw [View.canon_unit_zero origin]
  simp only [View.ld_unit_zero (S := S128x1600) origin, View.ld_unit_zero (S := S1600x4800) origin,
    View.ld_unit_zero (S := S1600x8) origin, View.ld_unit_zero (S := S8x4800) origin, View.ld_unit_zero (S := S1x4800) origin]
  rw [Pay.stored_eq (iblk m c 0 t) (iblk m c 1 t) (iblk m c 3 t) (iblk m c 4 t) (iblk m c 2 t),
    dense_block, bias_block, down_block, up_block]
  obtain ⟨e00, e01, -, -, -, -, -, -, -, -, e50, e51⟩ := block_index t
  funext j
  show Cert.Lora.rowEntry (iblk m c 0 t) (dense m c) (biasRow m c) (down m c) (up m c) (j 0) (j 1)
    = Cert.Lora.rowEntry (tokens m c) (dense m c) (biasRow m c) (down m c) (up m c)
        ((((cfg0.win 5).blk t).view.emb j) 0) ((((cfg0.win 5).blk t).view.emb j) 1)
  have hcol : ((((cfg0.win 5).blk t).view.emb j) 1 : Fin 4800) = j 1 := Fin.ext (by
    show win0_5.index t (1 : Fin 2) * 4800 + 1 * (j 1).val = (j 1).val; rw [e51]; omega)
  rw [hcol]
  refine Cert.Lora.rowEntry_congr _ _ _ _ _ _ _ _ _ fun k => ?_
  show V m c main_v0 (((cfg0.win 0).blk t).view.emb (ix2 (j 0) k)) = V m c main_v0 (ix2 ((((cfg0.win 5).blk t).view.emb j) 0) k)
  refine congrArg (V m c main_v0) (funext fun a => Fin.ext ?_)
  match a with
  | ⟨0, _⟩ => show win0_0.index t (0 : Fin 2) * 128 + 1 * (j 0).val = win0_5.index t (0 : Fin 2) * 128 + 1 * (j 0).val; rw [e00, e50]
  | ⟨1, _⟩ => show win0_0.index t (1 : Fin 2) * 1600 + 1 * k.val = k.val; rw [e01]; omega

/-! ## The result array after the region -/

/-- An index of the result is in point `t`'s block iff each coordinate is in the block's range on its axis. -/
theorem mem_block (t : Fin cfg0.N) (i : S8192x4800.Idx) :
    i ∈ ((cfg0.win 5).blk t).view.set ↔ ∀ a : Fin 2, win0_5.index t a * S128x4800.size a ≤ (i a).val ∧ (i a).val < win0_5.index t a * S128x4800.size a + S128x4800.size a := by
  show i ∈ ((View.whole main_v5).slice (win0_5.rect t)).set ↔ _
  rw [View.set_slice_whole, Rect.mem_set_unit]
  exact Iff.rfl

/-- The 64 blocks of 128 rows tile the 8192 rows: row `i` is in block `i / 128`. -/
theorem tiled (i : S8192x4800.Idx) :
    ∃ t : Fin cfg0.N, (cfg0.win 5).flush t = true ∧ i ∈ ((cfg0.win 5).blk t).view.set := by
  have hi0 : (i 0).val < 8192 := (i 0).isLt
  have hi1 : (i 1).val < 4800 := (i 1).isLt
  obtain ⟨t, q0, q1⟩ := block_onto ⟨(i 0).val / 128, by omega⟩
  have q0' : win0_5.index t (0 : Fin 2) = (i 0).val / 128 := q0
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4800 ≤ (i 1).val ∧ (i 1).val < win0_5.index t (1 : Fin 2) * 4800 + 4800; omega

/-- THE RESULT ARRAY after the region is the layer on all 8192 rows. -/
theorem region_result (c : Dev nD) : (dats m 0 c).arrAt 5 cfg0.N = allRows m c :=
  (dats m 0 c).arrAt_eq_of_cover 5 (allRows m c) (fun t _ => written_eq m c t) tiled

/-! ## The host lines around the region -/

theorem tokens_eq (c : Dev nD) :
    tokens m c = shapeCast S8192x1600 (m ((c : Thread nD τ).loc main_arg0)) shapeCasts_S4x2048x1600_S8192x1600 := by
  show StableHlo.after hostOps0 (fun b => m (c, b)) (Proc.devRef .tc main_v0) = _
  after_results
  rfl

theorem dense_eq (c : Dev nD) : dense m c = m ((c : Thread nD τ).loc main_arg1) := by
  show StableHlo.after hostOps0 (fun b => m (c, b)) (Proc.devRef .tc main_v1) = _
  after_results
  rfl

theorem biasRow_eq (c : Dev nD) :
    biasRow m c = shapeCast S1x4800 (m ((c : Thread nD τ).loc main_arg2)) shapeCasts_S4800_S1x4800 := by
  show StableHlo.after hostOps0 (fun b => m (c, b)) (Proc.devRef .tc main_v4) = _
  after_results
  rfl

theorem down_eq (c : Dev nD) : down m c = m ((c : Thread nD τ).loc main_arg3) := by
  show StableHlo.after hostOps0 (fun b => m (c, b)) (Proc.devRef .tc main_v2) = _
  after_results
  rfl

theorem up_eq (c : Dev nD) : up m c = m ((c : Thread nD τ).loc main_arg4) := by
  show StableHlo.after hostOps0 (fun b => m (c, b)) (Proc.devRef .tc main_v3) = _
  after_results
  rfl

/-- The program's result: the region's array viewed as 4 × 2048 × 4800 is the layer on the batch. -/
theorem result_eq (c : Dev nD) :
    Pipeline.afterTail₀ cfgs (dats m) 0 (V0 m) [hostOps1] c main_v6
      = Cert.Lora.layer (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  rw [Pipeline.withArrays_arr spec0 launch0.win.arr_inj c _ _ 5, region_result]
  unfold allRows
  rw [tokens_eq, dense_eq, biasRow_eq, down_eq, up_eq]
  exact Cert.Lora.layer_of_rows _ _ _ _ _ _ _ _

/-! ## The run -/

/-- Every weakly fair execution of the kernel's program terminates with its result at the layer of its arguments and
    the arguments as launched. -/
theorem run : θ_run defs (onTc (τ := τ) (main (F := Ideal))) ⟨m, fun _ => 0, ρ⟩ fun r => ∀ c : Dev nD,
      r.2.mem ((c.tc : Thread nD τ).loc main_v6)
        = Cert.Lora.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  A linear layer with a rank-8 adapter, fused into one kernel, against its plain reference.

  Both programs compute, for every token `(a, s)` of a 4 × 2048 batch and every output feature `f`,

      (Σ_k x[a,s,k] · W[k,f] + bias[f]) + (Σ_r (Σ_k x[a,s,k] · A[k,r]) · B[r,f]) · 4.

  The reference does it with three contractions over the whole batch. The kernel flattens the batch to 8192 rows,
  walks them in 64 blocks of 128 rows, and per block issues the three products to the matrix unit on operands
  narrowed to bfloat16, with float32 accumulation. Over the extended reals the narrowings are the identity and a
  product into a zero accumulator is a finite sum, so the two results are the same function of the arguments, term
  for term: the same sums, added and scaled in the same order, the scale the same binary32 word. Nothing is
  rearranged, so the inputs' finiteness is never used.

  `Proof/Spec.lean` states that function (`Cert.Lora.layer`), `Proof/RefValue.lean` reads the reference's result as it,
  `Proof/Payload.lean` reads the value one grid point stores, `Proof/KernelValue.lean` carries it through the 64 grid
  points and the flattening around them. The idealization pass rewrote nothing, so `preserves` has nothing to state.
-/
import proofs.«134206_j6158983102942_1_alg».proof.Defs
import proofs.«134206_j6158983102942_1_alg».proof.Proof.Gen.Kernel
import proofs.«134206_j6158983102942_1_alg».proof.Proof.Gen.Kernel.Skeleton
import proofs.«134206_j6158983102942_1_alg».proof.Proof.Gen.Kernel.Launch
import proofs.«134206_j6158983102942_1_alg».proof.Proof.Gen.Kernel.Points
import proofs.«134206_j6158983102942_1_alg».proof.Proof.Gen.Kernel.Frame
import proofs.«134206_j6158983102942_1_alg».proof.Proof.Gen.KernelIdeal
import proofs.«134206_j6158983102942_1_alg».proof.Proof.Gen.KernelIdeal.Skeleton
import proofs.«134206_j6158983102942_1_alg».proof.Proof.Gen.KernelIdeal.Launch
import proofs.«134206_j6158983102942_1_alg».proof.Proof.Gen.KernelIdeal.Points
import proofs.«134206_j6158983102942_1_alg».proof.Proof.Gen.KernelIdeal.Frame
import proofs.«134206_j6158983102942_1_alg».proof.Proof.Gen.ReferenceIdeal
import proofs.«134206_j6158983102942_1_alg».proof.Proof.Gen.ReferenceIdeal.Run
import proofs.«134206_j6158983102942_1_alg».proof.Proof.Gen.ReferenceIdeal.Read
import proofs.«134206_j6158983102942_1_alg».proof.Proof.Gen.Pre_finite_inputs
import proofs.«134206_j6158983102942_1_alg».proof.Proof.Spec
import proofs.«134206_j6158983102942_1_alg».proof.Proof.RefValue
import proofs.«134206_j6158983102942_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
